-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x64 : Shape := ⟨3, ![512, 512, 64]⟩
abbrev S512x512 : Shape := ⟨2, ![512, 512]⟩
abbrev S128x64 : Shape := ⟨2, ![128, 64]⟩
abbrev S128 : Shape := ⟨1, ![128]⟩
abbrev S_ : Shape := ⟨0, ![]⟩

class Facts : Prop where
  bcast_S_S512x512x64 : S_.BroadcastsInDim S512x512x64 (![] : Fin 0 → Fin S512x512x64.rank)
  reducesTo_S512x512x64_S_d0_1_2 : S512x512x64.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg1 : IVec S512x512 32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S512x512 32 := broadcastInDim S512x512 ![] bcast_S_S512x512 main_c_8
  let main_v25 : IVec S512x512 1 := cmpi .eq main_arg1 main_v24
  let main_c_9 : IVec S_ 32 := constantI S_ 32 1#32
  let main_v26 : IVec S512x512 32 := broadcastInDim S512x512 ![] bcast_S_S512x512 main_c_9
  let main_v27 : IVec S512x512 1 := cmpi .eq main_arg1 main_v26
  let main_v28 : IVec S512x512 1 := ori main_v25 main_v27
  let main_c_10 : IVec S_ 1 := constantI S_ 1 1#1
  let main_v29 : IVec S_ 1 := (fun x v => Host.reduce IntOp.andi x v reducesTo_S512x512_S_d0_1 h_S_) main_v28 main_c_10
  let main_v30 : IVec S_ 1 := andi main_v23 main_v29
  main_v30

def fn {F : FTy → Type} [FloatOps F] (main_arg0 : FVec F S512x512x64 .f32) (main_arg1 : IVec S512x512 32) (main_arg2 : FVec F S128x64 .f32) (main_arg3 : FVec F S128 .f32) (main_arg4 : FVec F S128 .f32) (main_arg5 : FVec F S128 .f32) : IVec S_ 1 :=
  let main_v0 : FVec F S512x512x64 .f32 := Host.absf main_arg0
  let main_cst : FVec F S_ .f32 := constant S_ .f32 0x7F800000#32
  let main_v1 : FVec F S512x512x64 .f32 := broadcastInDim S512x512x64 ![] bcast_S_S512x512x64 main_cst
  let main_v2 : IVec S512x512x64 1 := cmpf .olt main_v0 main_v1
  let main_c : IVec S_ 1 := constantI S_ 1 1#1
  let main_v3 : IVec S_ 1 := (fun x v => Host.reduce IntOp.andi x v reducesTo_S512x512x64_S_d0_1_2 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_v13 main_v16
-- ==== Kernel.lean ====
abbrev S512x512x64 : Shape := ⟨3, ![512, 512, 64]⟩
abbrev S512x512 : Shape := ⟨2, ![512, 512]⟩
abbrev S128x64 : Shape := ⟨2, ![128, 64]⟩
abbrev S128 : Shape := ⟨1, ![128]⟩
abbrev S512x512x256 : Shape := ⟨3, ![512, 512, 256]⟩
abbrev S512x128 : Shape := ⟨2, ![512, 128]⟩
abbrev S16x512x64 : Shape := ⟨3, ![16, 512, 64]⟩
abbrev S16x512 : Shape := ⟨2, ![16, 512]⟩
abbrev S16x512x256 : Shape := ⟨3, ![16, 512, 256]⟩
abbrev S16x128 : Shape := ⟨2, ![16, 128]⟩
abbrev S8192x64 : Shape := ⟨2, ![8192, 64]⟩
abbrev S8192x128 : Shape := ⟨2, ![8192, 128]⟩
abbrev S16x512x128 : Shape := ⟨3, ![16, 512, 128]⟩
abbrev S1x1x128 : Shape := ⟨3, ![1, 1, 128]⟩
abbrev S16x512x1 : Shape := ⟨3, ![16, 512, 1]⟩
abbrev S16x1x128 : Shape := ⟨3, ![16, 1, 128]⟩

abbrev nBuf : Space → Nat
  | .hbm => 8
  | .vmem => 12
  | .smem => 0
  | _ => 0

abbrev bufTy : (tb : Table) → Fin (tcTables nBuf tb) → BufTy
  | .hbm, ⟨0, _⟩ => ⟨S512x512x64, .f32⟩
  | .hbm, ⟨1, _⟩ => ⟨S512x512, .i32⟩
  | .hbm, ⟨2, _⟩ => ⟨S128x64, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S512x512x256, .f32⟩
  | .hbm, ⟨7, _⟩ => ⟨S512x128, .f32⟩
  | .local _ .vmem, ⟨0, _⟩ => ⟨S16x512x64, .f32⟩
  | .local _ .vmem, ⟨1, _⟩ => ⟨S16x512x64, .f32⟩
  | .local _ .vmem, ⟨2, _⟩ => ⟨S16x512, .i32⟩
  | .local _ .vmem, ⟨3, _⟩ => ⟨S16x512, .i32⟩
  | .local _ .vmem, ⟨4, _⟩ => ⟨S128x64, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S16x512x256, .f32⟩
  | .local _ .vmem, ⟨9, _⟩ => ⟨S16x512x256, .f32⟩
  | .local _ .vmem, ⟨10, _⟩ => ⟨S16x128, .f32⟩
  | .local _ .vmem, ⟨11, _⟩ => ⟨S16x128, .f32⟩
  | _, _ => ⟨S512x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S16x512x64_S16x512x64_0_0_0 : ∀ a, (![0, 0, 0] : Fin 3 → Nat) a + S16x512x64.size a ≤ S16x512x64.size a
  h_S16x512x64 : 0 < S16x512x64.numel
  bitsLt_bf16_f32 : FTy.bits .bf16 < FTy.bits .f32
  shapeCasts_S16x512x64_S8192x64 : S16x512x64.ShapeCasts S8192x64
  inb_S128x64_S128x64_0_0 : ∀ a, (![0, 0] : Fin 2 → Nat) a + S128x64.size a ≤ S128x64.size a
  h_S128x64 : 0 < S128x64.numel
  shapeCasts_S8192x128_S16x512x128 : S8192x128.ShapeCasts S16x512x128
  inb_S128_S128_0 : ∀ a, (![0] : Fin 1 → Nat) a + S128.size a ≤ S128.size a
  h_S128 : 0 < S128.numel
  shapeCasts_S128_S1x1x128 : S128.ShapeCasts S1x1x128
  broadcasts_S1x1x128_S16x512x128 : S1x1x128.Broadcasts S16x512x128
  reduces_S16x512x128_S16x512 : S16x512x128.Reduces [2] S16x512
  shapeCasts_S16x512_S16x512x1 : S16x512.ShapeCasts S16x512x1
  broadcasts_S16x512x1_S16x512x128 : S16x512x1.Broadcasts S16x512x128
  inb_S16x512_S16x512_0_0 : ∀ a, (![0, 0] : Fin 2 → Nat) a + S16x512.size a ≤ S16x512.size a
  h_S16x512 : 0 < S16x512.numel
  reduces_S16x512x128_S16x128 : S16x512x128.Reduces [1] S16x128
  inb_S16x512x256_S16x512x128_0_0_0 : ∀ a, (![0, 0, 0] : Fin 3 → Nat) a + S16x512x128.size a ≤ S16x512x256.size a
  h_S16x512x128 : 0 < S16x512x128.numel
  shapeCasts_S16x128_S16x1x128 : S16x128.ShapeCasts S16x1x128
  shapeCasts_S16x1x128_S16x1x128 : S16x1x128.ShapeCasts S16x1x128
  broadcasts_S16x1x128_S16x512x128 : S16x1x128.Broadcasts S16x512x128
  inb_S16x512x256_S16x512x128_0_0_128 : ∀ a, (![0, 0, 128] : Fin 3 → Nat) a + S16x512x128.size a ≤ S16x512x256.size a
  inb_S16x128_S16x128_0_0 : ∀ a, (![0, 0] : Fin 2 → Nat) a + S16x128.size a ≤ S16x128.size a
  h_S16x128 : 0 < S16x128.numel
  dot_S8192x64_S128x64_S8192x128_1_1_0_0_n_n_wf : DotDims.WF S8192x64 S128x64 S8192x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x64.size a ≤ S512x512x64.size a
  hwx0_0 : ∀ i : grid0.Coords, EltTy.bits .f32 = 32 ∨ (Rect.block (s := S512x512x64) S16x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S512x512.size a
  hwx0_1 : ∀ i : grid0.Coords, EltTy.bits .i32 = 32 ∨ (Rect.block (s := S512x512) S16x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x512x256.size a ≤ S512x512x256.size a
  hwx0_6 : ∀ i : grid0.Coords, EltTy.bits .f32 = 32 ∨ (Rect.block (s := S512x512x256) S16x512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x128.size a ≤ S512x128.size a
  hwx0_7 : ∀ i : grid0.Coords, EltTy.bits .f32 = 32 ∨ (Rect.block (s := S512x128) S16x128.size (cc0_transform_7 i) (hinb0_7 i)).WholeWords (EltTy.packing .f32)

variable [Facts₀]

def dot_S8192x64_S128x64_S8192x128_1_1_0_0_n_n : DotDims S8192x64 S128x64 S8192x128 where
  lhsContracting := [1]
  rhsContracting := [1]
  lhsNonContracting := [0]
  rhsNonContracting := [0]
  lhsBatch := []
  rhsBatch := []
  wf := dot_S8192x64_S128x64_S8192x128_1_1_0_0_n_n_wf

abbrev win0_0 : Pipeline.Window sig grid0 :=
  Pipeline.Window.ofSpec (Memref.whole main_arg0) S16x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S16x512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S16x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x512x64 : Shape := ⟨3, ![512, 512, 64]⟩
abbrev S512x512 : Shape := ⟨2, ![512, 512]⟩
abbrev S128x64 : Shape := ⟨2, ![128, 64]⟩
abbrev S128 : Shape := ⟨1, ![128]⟩
abbrev S512x512x128 : Shape := ⟨3, ![512, 512, 128]⟩
abbrev S1x1x128 : Shape := ⟨3, ![1, 1, 128]⟩
abbrev S_ : Shape := ⟨0, ![]⟩
abbrev S512x512x1 : Shape := ⟨3, ![512, 512, 1]⟩
abbrev S512x128 : Shape := ⟨2, ![512, 128]⟩
abbrev S512x1x128 : Shape := ⟨3, ![512, 1, 128]⟩
abbrev S512x512x256 : Shape := ⟨3, ![512, 512, 256]⟩

abbrev nBuf : Space → Nat
  | .hbm => 55
  | .vmem => 0
  | .smem => 0
  | _ => 0

abbrev bufTy : (tb : Table) → Fin (tcTables nBuf tb) → BufTy
  | .hbm, ⟨0, _⟩ => ⟨S512x512x64, .f32⟩
  | .hbm, ⟨1, _⟩ => ⟨S512x512, .i32⟩
  | .hbm, ⟨2, _⟩ => ⟨S128x64, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S512x512x128, .f32⟩
  | .hbm, ⟨7, _⟩ => ⟨S1x1x128, .f32⟩
  | .hbm, ⟨8, _⟩ => ⟨S512x512x128, .f32⟩
  | .hbm, ⟨9, _⟩ => ⟨S512x512x128, .f32⟩
  | .hbm, ⟨10, _⟩ => ⟨S_, .f32⟩
  | .hbm, ⟨11, _⟩ => ⟨S512x512, .f32⟩
  | .hbm, ⟨12, _⟩ => ⟨S512x512x1, .f32⟩
  | .hbm, ⟨13, _⟩ => ⟨S_, .f32⟩
  | .hbm, ⟨14, _⟩ => ⟨S512x512x1, .f32⟩
  | .hbm, ⟨15, _⟩ => ⟨S512x512x1, .f32⟩
  | .hbm, ⟨16, _⟩ => ⟨S512x512x128, .f32⟩
  | .hbm, ⟨17, _⟩ => ⟨S512x512x128, .f32⟩
  | .hbm, ⟨18, _⟩ => ⟨S512x512x128, .f32⟩
  | .hbm, ⟨19, _⟩ => ⟨S_, .f32⟩
  | .hbm, ⟨20, _⟩ => ⟨S512x512, .f32⟩
  | .hbm, ⟨21, _⟩ => ⟨S512x512x1, .f32⟩
  | .hbm, ⟨22, _⟩ => ⟨S_, .f32⟩
  | .hbm, ⟨23, _⟩ => ⟨S512x512x1, .f32⟩
  | .hbm, ⟨24, _⟩ => ⟨S512x512x1, .f32⟩
  | .hbm, ⟨25, _⟩ => ⟨S512x512x128, .f32⟩
  | .hbm, ⟨26, _⟩ => ⟨S512x512x128, .f32⟩
  | .hbm, ⟨27, _⟩ => ⟨S_, .f32⟩
  | .hbm, ⟨28, _⟩ => ⟨S512x512x1, .f32⟩
  | .hbm, ⟨29, _⟩ => ⟨S512x512x1, .f32⟩
  | .hbm, ⟨30, _⟩ => ⟨S512x512x1, .f32⟩
  | .hbm, ⟨31, _⟩ => ⟨S512x512x128, .f32⟩
  | .hbm, ⟨32, _⟩ => ⟨S512x512x128, .f32⟩
  | .hbm, ⟨33, _⟩ => ⟨S1x1x128, .f32⟩
  | .hbm, ⟨34, _⟩ => ⟨S512x512x128, .f32⟩
  | .hbm, ⟨35, _⟩ => ⟨S512x512x128, .f32⟩
  | .hbm, ⟨36, _⟩ => ⟨S1x1x128, .f32⟩
  | .hbm, ⟨37, _⟩ => ⟨S512x512x128, .f32⟩
  | .hbm, ⟨38, _⟩ => ⟨S512x512x128, .f32⟩
  | .hbm, ⟨39, _⟩ => ⟨S_, .f32⟩
  | .hbm, ⟨40, _⟩ => ⟨S512x512x128, .f32⟩
  | .hbm, ⟨41, _⟩ => ⟨S512x512x128, .f32⟩
  | .hbm, ⟨42, _⟩ => ⟨S_, .i32⟩
  | .hbm, ⟨43, _⟩ => ⟨S512x512, .i32⟩
  | .hbm, ⟨44, _⟩ => ⟨S512x512, .i1⟩
  | .hbm, ⟨45, _⟩ => ⟨S512x512x1, .i1⟩
  | .hbm, ⟨46, _⟩ => ⟨S_, .f32⟩
  | .hbm, ⟨47, _⟩ => ⟨S512x512x128, .i1⟩
  | .hbm, ⟨48, _⟩ => ⟨S512x512x128, .f32⟩
  | .hbm, ⟨49, _⟩ => ⟨S512x512x128, .f32⟩
  | .hbm, ⟨50, _⟩ => ⟨S_, .f32⟩
  | .hbm, ⟨51, _⟩ => ⟨S512x128, .f32⟩
  | .hbm, ⟨52, _⟩ => ⟨S512x1x128, .f32⟩
  | .hbm, ⟨53, _⟩ => ⟨S512x512x128, .f32⟩
  | .hbm, ⟨54, _⟩ => ⟨S512x512x256, .f32⟩
  | _, _ => ⟨S512x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_call1_v0 : Ref sig .tc := ⟨.hbm, 47, rfl⟩
abbrev main_call1_v1 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S512x512x128_0_1_2 : S1x1x128.BroadcastsInDim S512x512x128 (![0, 1, 2] : Fin 3 → Fin S512x512x128.rank)
  reducesTo_S512x512x128_S512x512_d2 : S512x512x128.ReducesTo [2] S512x512
  h_S_ : 0 < S_.numel
  bcast_S512x512_S512x512x1_0_1 : S512x512.BroadcastsInDim S512x512x1 (![0, 1] : Fin 2 → Fin S512x512x1.rank)
  bcast_S_S512x512x1 : S_.BroadcastsInDim S512x512x1 (![] : Fin 0 → Fin S512x512x1.rank)
  bcast_S512x512x1_S512x512x128_0_1_2 : S512x512x1.BroadcastsInDim S512x512x128 (![0, 1, 2] : Fin 3 → Fin S512x512x128.rank)
  bcast_S_S512x512x128 : S_.BroadcastsInDim S512x512x128 (![] : Fin 0 → Fin S512x512x128.rank)
  bcast_S_S512x512 : S_.BroadcastsInDim S512x512 (![] : Fin 0 → Fin S512x512.rank)
  reducesTo_S512x512x128_S512x128_d1 : S512x512x128.ReducesTo [1] S512x128
  bcast_S512x128_S512x1x128_0_2 : S512x128.BroadcastsInDim S512x1x128 (![0, 2] : Fin 2 → Fin S512x1x128.rank)
  bcast_S512x1x128_S512x512x128_0_1_2 : S512x1x128.BroadcastsInDim S512x512x128 (![0, 1, 2] : Fin 3 → Fin S512x512x128.rank)
  concatenates_S512x512x128_S512x512x128_S512x512x256_d2 : Shape.Concatenates [S512x512x128, S512x512x128] S512x512x256 2
  dot_S512x512x64_S128x64_S512x512x128_2_1_01_0_n_n_wf : DotDims.WF S512x512x64 S128x64 S512x512x128 [2] [1] [0, 1] [0] [] []

variable [Facts₀]

def dot_S512x512x64_S128x64_S512x512x128_2_1_01_0_n_n : DotDims S512x512x64 S128x64 S512x512x128 where
  lhsContracting := [2]
  rhsContracting := [1]
  lhsNonContracting := [0, 1]
  rhsNonContracting := [0]
  lhsBatch := []
  rhsBatch := []
  wf := dot_S512x512x64_S128x64_S512x512x128_2_1_01_0_n_n_wf

class Facts : Prop extends Facts₀ where

variable [Facts]
-- ==== Proof.PoolSpec.lean ====
/-
  The function both programs compute, written once over the extended reals.

  One point of the cloud has 64 features `X`. The layer maps them to 128 channels by an affine map
  (`lin`: the dot product with a row of the weight matrix, plus the bias), normalizes the 128 channel
  values to mean zero and unit variance (`mean`: a sum divided by the f32 value 128; the variance gets the
  f32 constant near 1e-5 added before the reciprocal square root), scales and shifts each channel, and
  clamps at zero (`yrow`). A cloud pools its 512 points per channel: the maximum, from minus infinity, of
  the point's value where the point's mask word is not zero and of zero where it is (`keep`, `pooled`).
  The first result holds, per point, the 128 channel values followed by the cloud's 128 pooled values
  (`out`); the second result is the pooled values alone.

  Everything is stated for `N` clouds, so that the same formulas describe a block of 16 clouds and the
  whole array of 512; a cloud's values depend on that cloud's features and mask words only
  (`point_congr`, `pooled_congr`, `out_congr`).
-/
import Idealize.ShloMosaic.PureOps.Ideal
import Idealize.ShloMosaic.Lib.ValueIdx

noncomputable section

namespace Cert.PoolSpec

open Idealize.ShloMosaic Idealize.ShloMosaic.ValueIdx

/-- The affine map at channel `h`: the features' dot product with row `h` of the weights, plus the bias. -/
def lin (X : Fin 64 → EReal) (W : Fin 128 → Fin 64 → EReal) (B : Fin 128 → EReal) (h : Fin 128) : EReal :=
  (∑ k : Fin 64, X k * W h k) + B h

/-- The mean of 128 channel values: their sum divided by (the f32 pattern of) 128. -/
def mean (f : Fin 128 → EReal) : EReal :=
  Ideal.div (∑ h : Fin 128, f h) (Ideal.ofBits .f32 0x43000000#32)

/-- One point's channel `h` after the affine map, the normalization over the 128 channels, the
    per-channel scale and shift, and the clamp at zero. -/
def yrow (X : Fin 64 → EReal) (W : Fin 128 → Fin 64 → EReal) (B Gm Be : Fin 128 → EReal) (h : Fin 128) : EReal :=
  max ((lin X W B h - mean (lin X W B))
        * Ideal.rsqrt (mean (fun h' => (lin X W B h' - mean (lin X W B)) * (lin X W B h' - mean (lin X W B)))
            + Ideal.ofBits .f32 0x3727C5AC#32)
        * Gm h + Be h)
    (Ideal.ofBits .f32 0x00000000#32)

/-- A point's value as the pool sees it: zero where the mask word is zero, the value elsewhere. -/
def keep (w : BitVec 32) (y : EReal) : EReal :=
  Scalar.select (IntOp.cmpi .eq w 0#32) (Ideal.ofBits .f32 0x00000000#32) y

/-- For a mask word that is 0 or 1, multiplying by the word (as a number) is the same selection:
    `y * 0 = 0` on every extended real, and `y * 1 = y`. -/
theorem mul_word_eq_keep (w : BitVec 32) (hw : w = 0#32 ∨ w = 1#32) (y : EReal) :
    y * ((w.toInt : ℝ) : EReal) = keep w y := by
  rcases hw with rfl | rfl
  · have h0 : ((((0#32 : BitVec 32).toInt : ℤ) : ℝ) : EReal) = 0 := by norm_num
    rw [h0, mul_zero]
    show _ = Scalar.select (IntOp.cmpi .eq (0#32 : BitVec 32) 0#32) _ _
    rw [show IntOp.cmpi .eq (0#32 : BitVec 32) 0#32 = 1#1 from by decide, select_one]
    simp [Ideal.ofBits, Ideal.ieee]
  · have h1 : ((((1#32 : BitVec 32).toInt : ℤ) : ℝ) : EReal) = 1 := by norm_num
    rw [h1, mul_one]
    show _ = Scalar.select (IntOp.cmpi .eq (1#32 : BitVec 32) 0#32) _ _
    rw [show IntOp.cmpi .eq (1#32 : BitVec 32) 0#32 = 0#1 from by decide, select_zero]

variable (N : Nat)

/-- Channel `h` of point `l` of cloud `n`. -/
def point (x : (⟨3, ![N, 512, 64]⟩ : Shape).Idx → EReal) (W : (⟨2, ![128, 64]⟩ : Shape).Idx → EReal)
    (b g be : (⟨1, ![128]⟩ : Shape).Idx → EReal) (n : Fin N) (l : Fin 512) (h : Fin 128) : EReal :=
  yrow (fun k => x (ix3 n l k)) (fun h' k => W (ix2 h' k)) (fun h' => b (ix1 h')) (fun h' => g (ix1 h'))
    (fun h' => be (ix1 h')) h

/-- Channel `h` of cloud `n`, pooled over its 512 points. -/
def pooled (x : (⟨3, ![N, 512, 64]⟩ : Shape).Idx → EReal) (mask : (⟨2, ![N, 512]⟩ : Shape).Idx → BitVec 32)
    (W : (⟨2, ![128, 64]⟩ : Shape).Idx → EReal) (b g be : (⟨1, ![128]⟩ : Shape).Idx → EReal) (n : Fin N) (h : Fin 128) : EReal :=
  (Finset.univ : Finset (Fin 512)).fold max (Ideal.ofBits .f32 0xFF800000#32)
    (fun l => keep (mask (ix2 n l)) (point N x W b g be n l h))

/-- The first result: per point its 128 channel values, then its cloud's 128 pooled values. -/
def out (x : (⟨3, ![N, 512, 64]⟩ : Shape).Idx → EReal) (mask : (⟨2, ![N, 512]⟩ : Shape).Idx → BitVec 32)
    (W : (⟨2, ![128, 64]⟩ : Shape).Idx → EReal) (b g be : (⟨1, ![128]⟩ : Shape).Idx → EReal) :
    (⟨3, ![N, 512, 256]⟩ : Shape).Idx → EReal := fun i =>
  if hj : (i 2).val < 128 then point N x W b g be (i 0) (i 1) ⟨(i 2).val, hj⟩
  else pooled N x mask W b g be (i 0) ⟨(i 2).val - 128, by have h2 : (i 2).val < 256 := (i 2).isLt; omega⟩

/-- The second result: the pooled values. -/
def pool (x : (⟨3, ![N, 512, 64]⟩ : Shape).Idx → EReal) (mask : (⟨2, ![N, 512]⟩ : Shape).Idx → BitVec 32)
    (W : (⟨2, ![128, 64]⟩ : Shape).Idx → EReal) (b g be : (⟨1, ![128]⟩ : Shape).Idx → EReal) :
    (⟨2, ![N, 128]⟩ : Shape).Idx → EReal := fun j => pooled N x mask W b g be (j 0) (j 1)

variable {N} {M : Nat}

/-- A point's channels depend on that point's features only. -/
theorem point_congr (x : (⟨3, ![N, 512, 64]⟩ : Shape).Idx → EReal) (x' : (⟨3, ![M, 512, 64]⟩ : Shape).Idx → EReal)
    (W : (⟨2, ![128, 64]⟩ : Shape).Idx → EReal) (b g be : (⟨1, ![128]⟩ : Shape).Idx → EReal)
    (n : Fin N) (n' : Fin M) (l : Fin 512) (hx : ∀ k, x (ix3 n l k) = x' (ix3 n' l k)) (h : Fin 128) :
    point N x W b g be n l h = point M x' W b g be n' l h := by
  unfold point
  rw [show (fun k => x (ix3 n l k)) = fun k => x' (ix3 n' l k) from funext hx]

/-- A cloud's pooled values depend on that cloud's features and mask words only. -/
theorem pooled_congr (x : (⟨3, ![N, 512, 64]⟩ : Shape).Idx → EReal) (x' : (⟨3, ![M, 512, 64]⟩ : Shape).Idx → EReal)
    (mask : (⟨2, ![N, 512]⟩ : Shape).Idx → BitVec 32) (mask' : (⟨2, ![M, 512]⟩ : Shape).Idx → BitVec 32)
    (W : (⟨2, ![128, 64]⟩ : Shape).Idx → EReal) (b g be : (⟨1, ![128]⟩ : Shape).Idx → EReal)
    (n : Fin N) (n' : Fin M) (hx : ∀ l k, x (ix3 n l k) = x' (ix3 n' l k))
    (hm : ∀ l, mask (ix2 n l) = mask' (ix2 n' l)) (h : Fin 128) :
    pooled N x mask W b g be n h = pooled M x' mask' W b g be n' h := by
  unfold pooled
  have e : (fun l => keep (mask (ix2 n l)) (point N x W b g be n l h))
      = fun l => keep (mask' (ix2 n' l)) (point M x' W b g be n' l h) :=
    funext fun l => by rw [hm l, point_congr x x' W b g be n n' l (hx l) h]
  rw [e]

end Cert.PoolSpec

end
-- ==== Proof.RefValue.lean ====
/-
  The reference program's two results, read index by index over the extended reals, are the functions of the
  specification.

  The reference maps each point's 64 features to 128 channels by an affine map, normalizes the 128 values to mean zero
  and unit variance, scales and shifts them, clamps them at zero, replaces the values of a masked point by zero, takes
  per cloud and channel the maximum over the 512 points starting from minus infinity, and joins, per point, the 128
  clamped values with the cloud's 128 maxima. Each of these stages is read at an index given by its coordinates:
  the affine value (`v3_apply`), the mean (`v7_apply`), the centred value (`v9_apply`, `v16_apply`), the mean of
  the squares (`v14_apply`), its reciprocal square root after the small constant is added (`v19_apply`), the clamped
  value (`v28_apply`), the value the pool sees (`v32_apply`), the pooled value (`v33_eq`) and the joined result
  (`v36_eq`).
-/
import proofs.«412173_j24524263260901_3_alg».proof.Proof.RefRead
import proofs.«412173_j24524263260901_3_alg».proof.Proof.PoolSpec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

/-! ## The index maps of the layout operations, at an index given by its coordinates -/

/-- The features the product at point `(n, l)` and channel `h` reads: feature `k` of that point. -/
theorem lidx_v0 (n l : Fin 512) (h : Fin 128) (k : Fin 64) : lidx_main_v0 (ix3 n l h) k = ix3 n l k :=
  funext fun a => Fin.ext (by match a with | ⟨0, _⟩ => rfl | ⟨1, _⟩ => rfl | ⟨2, _⟩ => rfl)
/-- The weights it reads: row `h`, column `k`. -/
theorem ridx_v0 (n l : Fin 512) (h : Fin 128) (k : Fin 64) : ridx_main_v0 (ix3 n l h) k = ix2 h k :=
  funext fun a => Fin.ext (by match a with | ⟨0, _⟩ => rfl | ⟨1, _⟩ => rfl)
/-- A per-channel vector spread over all points is read at the channel. -/
theorem idx_v1_v2 (n l : Fin 512) (h : Fin 128) : idx_main_v1 (idx_main_v2 (ix3 n l h)) = ix1 h :=
  funext fun a => Fin.ext (by match a with | ⟨0, _⟩ => rfl)
theorem idx_v22_v23 (n l : Fin 512) (h : Fin 128) : idx_main_v22 (idx_main_v23 (ix3 n l h)) = ix1 h :=
  funext fun a => Fin.ext (by match a with | ⟨0, _⟩ => rfl)
theorem idx_v25_v26 (n l : Fin 512) (h : Fin 128) : idx_main_v25 (idx_main_v26 (ix3 n l h)) = ix1 h :=
  funext fun a => Fin.ext (by match a with | ⟨0, _⟩ => rfl)
/-- The channel sum at point `(n, l)` runs over that point's 128 channels. -/
theorem idx_v4_v5 (n l : Fin 512) (z : Fin 1) (k : Fin 128) : idx_main_v4 (idx_main_v5 (ix3 n l z)) k = ix3 n l k :=
  funext fun a => Fin.ext (by match a with | ⟨0, _⟩ => rfl | ⟨1, _⟩ => rfl | ⟨2, _⟩ => rfl)
theorem idx_v11_v12 (n l : Fin 512) (z : Fin 1) (k : Fin 128) : idx_main_v11 (idx_main_v12 (ix3 n l z)) k = ix3 n l k :=
  funext fun a => Fin.ext (by match a with | ⟨0, _⟩ => rfl | ⟨1, _⟩ => rfl | ⟨2, _⟩ => rfl)
/-- A per-point value spread over the channels is read at the point. -/
theorem idx_v8 (n l : Fin 512) (h : Fin 128) : idx_main_v8 (ix3 n l h) = ix3 n l (⟨0, Nat.one_pos⟩ : Fin 1) :=
  funext fun a => Fin.ext (by match a with | ⟨0, _⟩ => rfl | ⟨1, _⟩ => rfl | ⟨2, _⟩ => rfl)
theorem idx_v15 (n l : Fin 512) (h : Fin 128) : idx_main_v15 (ix3 n l h) = ix3 n l (⟨0, Nat.one_pos⟩ : Fin 1) :=
  funext fun a => Fin.ext (by match a with | ⟨0, _⟩ => rfl | ⟨1, _⟩ => rfl | ⟨2, _⟩ => rfl)
theorem idx_v20 (n l : Fin 512) (h : Fin 128) : idx_main_v20 (ix3 n l h) = ix3 n l (⟨0, Nat.one_pos⟩ : Fin 1) :=
  funext fun a => Fin.ext (by match a with | ⟨0, _⟩ => rfl | ⟨1, _⟩ => rfl | ⟨2, _⟩ => rfl)
/-- The mask word the selection at point `(n, l)` reads, whatever the channel. -/
theorem idx_v31_call1 (n l : Fin 512) (h : Fin 128) : idx_main_v31 (idx_main_call1_v0 (ix3 n l h)) = ix2 n l :=
  funext fun a => Fin.ext (by match a with | ⟨0, _⟩ => rfl | ⟨1, _⟩ => rfl)
/-- The pooled values spread over a cloud's points are read at the cloud and the channel. -/
theorem idx_v34_v35 (n l : Fin 512) (h : Fin 128) : idx_main_v34 (idx_main_v35 (ix3 n l h)) = ix2 n h :=
  funext fun a => Fin.ext (by match a with | ⟨0, _⟩ => rfl | ⟨1, _⟩ => rfl)

/-! ## One point: the affine map, the normalization, the scale and shift, the clamp -/

/-- The affine map's 128 values at point `l` of cloud `n`. -/
abbrev linAt (x0 : (⟨S512x512x64, .f32⟩ : BufTy).Contents (Elt Ideal)) (x2 : (⟨S128x64, .f32⟩ : BufTy).Contents (Elt Ideal)) (x3 : (⟨S128, .f32⟩ : BufTy).Contents (Elt Ideal)) (n l : Fin 512) : Fin 128 → EReal :=
  Cert.PoolSpec.lin (fun k => x0 (ix3 n l k)) (fun h' k => x2 (ix2 h' k)) (fun h' => x3 (ix1 h'))

/-- Before the normalization a point's channel `h` is the features' product with row `h` of the weights plus the bias. -/
theorem v3_apply (x0 : (⟨S512x512x64, .f32⟩ : BufTy).Contents (Elt Ideal)) (x2 : (⟨S128x64, .f32⟩ : BufTy).Contents (Elt Ideal)) (x3 : (⟨S128, .f32⟩ : BufTy).Contents (Elt Ideal)) (n l : Fin 512) (h : Fin 128) :
    val_main_v3 (F := Ideal) x0 x2 x3 (ix3 n l h) = linAt x0 x2 x3 n l h := by
  rw [val_main_v3_apply, val_main_v0_apply, val_main_v2_apply, val_main_v1_apply, idx_v1_v2]
  simp only [lidx_v0, ridx_v0]
  rfl

/-- The mean of a point's 128 values: the sum, started at zero, divided by 128. -/
theorem v7_apply (x0 : (⟨S512x512x64, .f32⟩ : BufTy).Contents (Elt Ideal)) (x2 : (⟨S128x64, .f32⟩ : BufTy).Contents (Elt Ideal)) (x3 : (⟨S128, .f32⟩ : BufTy).Contents (Elt Ideal)) (n l : Fin 512) (z : Fin 1) :
    val_main_v7 (F := Ideal) x0 x2 x3 (ix3 n l z) = Cert.PoolSpec.mean (linAt x0 x2 x3 n l) := by
  rw [val_main_v7_apply, val_main_v5_apply, val_main_v4_apply, val_main_v6_apply, val_main_cst_0_apply, val_main_cst_apply]
  simp only [idx_v4_v5, v3_apply]
  simp only [Ideal.ofBits_def, Ideal.ofBits_zero_f32, zero_add]
  rfl

/-- The centred value, as the variance takes it. -/
theorem v9_apply (x0 : (⟨S512x512x64, .f32⟩ : BufTy).Contents (Elt Ideal)) (x2 : (⟨S128x64, .f32⟩ : BufTy).Contents (Elt Ideal)) (x3 : (⟨S128, .f32⟩ : BufTy).Contents (Elt Ideal)) (n l : Fin 512) (h : Fin 128) :
    val_main_v9 (F := Ideal) x0 x2 x3 (ix3 n l h) = linAt x0 x2 x3 n l h - Cert.PoolSpec.mean (linAt x0 x2 x3 n l) := by
  rw [val_main_v9_apply, val_main_v8_apply, idx_v8, v7_apply, v3_apply]
  rfl

/-- The centred value, as the normalized value takes it: the same. -/
theorem v16_apply (x0 : (⟨S512x512x64, .f32⟩ : BufTy).Contents (Elt Ideal)) (x2 : (⟨S128x64, .f32⟩ : BufTy).Contents (Elt Ideal)) (x3 : (⟨S128, .f32⟩ : BufTy).Contents (Elt Ideal)) (n l : Fin 512) (h : Fin 128) :
    val_main_v16 (F := Ideal) x0 x2 x3 (ix3 n l h) = linAt x0 x2 x3 n l h - Cert.PoolSpec.mean (linAt x0 x2 x3 n l) := by
  rw [val_main_v16_apply, val_main_v15_apply, idx_v15, v7_apply, v3_apply]
  rfl

/-- The variance: the mean of the centred values' squares. -/
theorem v14_apply (x0 : (⟨S512x512x64, .f32⟩ : BufTy).Contents (Elt Ideal)) (x2 : (⟨S128x64, .f32⟩ : BufTy).Contents (Elt Ideal)) (x3 : (⟨S128, .f32⟩ : BufTy).Contents (Elt Ideal)) (n l : Fin 512) (z : Fin 1) :
    val_main_v14 (F := Ideal) x0 x2 x3 (ix3 n l z)
      = Cert.PoolSpec.mean (fun h' => (linAt x0 x2 x3 n l h' - Cert.PoolSpec.mean (linAt x0 x2 x3 n l))
          * (linAt x0 x2 x3 n l h' - Cert.PoolSpec.mean (linAt x0 x2 x3 n l))) := by
  rw [val_main_v14_apply, val_main_v12_apply, val_main_v11_apply, val_main_v13_apply, val_main_cst_2_apply, val_main_cst_1_apply]
  simp only [idx_v11_v12, val_main_v10_apply, v9_apply]
  simp only [Ideal.ofBits_def, Ideal.ofBits_zero_f32, zero_add]
  rfl

/-- The factor the centred value is multiplied by: the reciprocal square root of the variance plus the small constant. -/
theorem v19_apply (x0 : (⟨S512x512x64, .f32⟩ : BufTy).Contents (Elt Ideal)) (x2 : (⟨S128x64, .f32⟩ : BufTy).Contents (Elt Ideal)) (x3 : (⟨S128, .f32⟩ : BufTy).Contents (Elt Ideal)) (n l : Fin 512) (z : Fin 1) :
    val_main_v19 (F := Ideal) x0 x2 x3 (ix3 n l z)
      = Ideal.rsqrt (Cert.PoolSpec.mean (fun h' => (linAt x0 x2 x3 n l h' - Cert.PoolSpec.mean (linAt x0 x2 x3 n l))
          * (linAt x0 x2 x3 n l h' - Cert.PoolSpec.mean (linAt x0 x2 x3 n l))) + Ideal.ofBits .f32 0x3727C5AC#32) := by
  rw [val_main_v19_apply, val_main_v18_apply, v14_apply, val_main_v17_apply, val_main_cst_3_apply]
  rfl

/-- The clamped value at point `l` of cloud `n` and channel `h` is the specification's. -/
theorem v28_apply (x0 : (⟨S512x512x64, .f32⟩ : BufTy).Contents (Elt Ideal)) (x2 : (⟨S128x64, .f32⟩ : BufTy).Contents (Elt Ideal))
    (x3 x4 x5 : (⟨S128, .f32⟩ : BufTy).Contents (Elt Ideal)) (n l : Fin 512) (h : Fin 128) :
    val_main_v28 (F := Ideal) x0 x2 x3 x4 x5 (ix3 n l h) = Cert.PoolSpec.point 512 x0 x2 x3 x4 x5 n l h := by
  rw [val_main_v28_apply, val_main_v27_apply, val_main_v24_apply, val_main_v21_apply, v16_apply, val_main_v20_apply, idx_v20,
    v19_apply, val_main_v23_apply, val_main_v22_apply, idx_v22_v23, val_main_v26_apply, val_main_v25_apply, idx_v25_v26,
    val_main_call0_v0_apply, val_main_call0_cst_apply]
  rfl

/-! ## The selection by the mask word and the pool over a cloud's points -/

/-- What the pool sees at a point: zero where the point's mask word is zero, the clamped value elsewhere. -/
theorem v32_apply (x0 : (⟨S512x512x64, .f32⟩ : BufTy).Contents (Elt Ideal)) (x1 : (⟨S512x512, .i32⟩ : BufTy).Contents (Elt Ideal))
    (x2 : (⟨S128x64, .f32⟩ : BufTy).Contents (Elt Ideal)) (x3 x4 x5 : (⟨S128, .f32⟩ : BufTy).Contents (Elt Ideal)) (n l : Fin 512) (h : Fin 128) :
    val_main_v32 (F := Ideal) x0 x1 x2 x3 x4 x5 (ix3 n l h)
      = Cert.PoolSpec.keep (x1 (ix2 n l)) (Cert.PoolSpec.point 512 x0 x2 x3 x4 x5 n l h) := by
  rw [val_main_v32_apply, val_main_call1_v0_apply, val_main_v31_apply, idx_v31_call1, val_main_v30_apply, val_main_v29_apply,
    val_main_c_apply, val_main_call1_v1_apply, val_main_cst_4_apply, v28_apply]
  rfl

/-- Dropping the point axis of the [512, 512, 128] array leaves the [512, 128] one. -/
theorem reduces_d1 : S512x512x128.Reduces [1] S512x128 := by decide

/-- Cloud `n` and channel `h` with point `l` inserted. -/
theorem lift_d1 (n : Fin 512) (h : Fin 128) (l : Fin 512) : reduces_d1.lift (ix2 n h) l = ix3 n l h :=
  funext fun a => Fin.ext (by match a with | ⟨0, _⟩ => rfl | ⟨1, _⟩ => rfl | ⟨2, _⟩ => rfl)

/-- The second result: per cloud and channel the maximum, from minus infinity, over the cloud's 512 points. -/
theorem v33_eq (x0 : (⟨S512x512x64, .f32⟩ : BufTy).Contents (Elt Ideal)) (x1 : (⟨S512x512, .i32⟩ : BufTy).Contents (Elt Ideal))
    (x2 : (⟨S128x64, .f32⟩ : BufTy).Contents (Elt Ideal)) (x3 x4 x5 : (⟨S128, .f32⟩ : BufTy).Contents (Elt Ideal)) :
    val_main_v33 (F := Ideal) x0 x1 x2 x3 x4 x5 = Cert.PoolSpec.pool 512 x0 x1 x2 x3 x4 x5 := by
  funext j
  obtain ⟨n, h, rfl⟩ : ∃ n h, j = ix2 n h := ⟨j 0, j 1, eq_ix2 j⟩
  unfold val_main_v33
  refine (Host.reduce_eq_fold_single FloatOps.maximumf _ _ reducesTo_S512x512x128_S512x128_d1 reduces_d1 h_S_ (ix2 n h)).trans ?_
  have e : (val_main_v32 (F := Ideal) x0 x1 x2 x3 x4 x5 ∘ reduces_d1.lift (ix2 n h))
      = fun l : Fin 512 => Cert.PoolSpec.keep (x1 (ix2 n l)) (Cert.PoolSpec.point 512 x0 x2 x3 x4 x5 n l h) :=
    funext fun l => by
      show val_main_v32 (F := Ideal) x0 x1 x2 x3 x4 x5 (reduces_d1.lift (ix2 n h) l) = _
      refine (congrArg (val_main_v32 (F := Ideal) x0 x1 x2 x3 x4 x5) (lift_d1 n h l)).trans ?_
      exact v32_apply x0 x1 x2 x3 x4 x5 n l h
  rw [e]
  rfl

/-! ## The first result: the clamped values joined with the pooled ones -/

/-- Below 128 on the last axis the specification's first result is the point's value. -/
theorem out_lo (x0 : (⟨S512x512x64, .f32⟩ : BufTy).Contents (Elt Ideal)) (x1 : (⟨S512x512, .i32⟩ : BufTy).Contents (Elt Ideal))
    (x2 : (⟨S128x64, .f32⟩ : BufTy).Contents (Elt Ideal)) (x3 x4 x5 : (⟨S128, .f32⟩ : BufTy).Contents (Elt Ideal)) (n l : Fin 512) (c : Fin 256) (hc : c.val < 128) :
    Cert.PoolSpec.out 512 x0 x1 x2 x3 x4 x5 (ix3 n l c) = Cert.PoolSpec.point 512 x0 x2 x3 x4 x5 n l ⟨c.val, hc⟩ := by
  unfold Cert.PoolSpec.out
  exact dif_pos hc

/-- From 128 on it is the cloud's pooled value. -/
theorem out_hi (x0 : (⟨S512x512x64, .f32⟩ : BufTy).Contents (Elt Ideal)) (x1 : (⟨S512x512, .i32⟩ : BufTy).Contents (Elt Ideal))
    (x2 : (⟨S128x64, .f32⟩ : BufTy).Contents (Elt Ideal)) (x3 x4 x5 : (⟨S128, .f32⟩ : BufTy).Contents (Elt Ideal)) (n l : Fin 512) (c : Fin 256) (hc : ¬ c.val < 128) :
    Cert.PoolSpec.out 512 x0 x1 x2 x3 x4 x5 (ix3 n l c)
      = Cert.PoolSpec.pooled 512 x0 x1 x2 x3 x4 x5 n ⟨c.val - 128, by have := c.isLt; omega⟩ := by
  unfold Cert.PoolSpec.out
  exact dif_neg hc

/-- The first result: per point the 128 clamped values, then the cloud's 128 pooled values. -/
theorem v36_eq (x0 : (⟨S512x512x64, .f32⟩ : BufTy).Contents (Elt Ideal)) (x1 : (⟨S512x512, .i32⟩ : BufTy).Contents (Elt Ideal))
    (x2 : (⟨S128x64, .f32⟩ : BufTy).Contents (Elt Ideal)) (x3 x4 x5 : (⟨S128, .f32⟩ : BufTy).Contents (Elt Ideal)) :
    val_main_v36 (F := Ideal) x0 x1 x2 x3 x4 x5 = Cert.PoolSpec.out 512 x0 x1 x2 x3 x4 x5 := by
  funext i
  obtain ⟨n, l, c, rfl⟩ : ∃ n l c, i = ix3 n l c := ⟨i 0, i 1, i 2, eq_ix3 i⟩
  unfold val_main_v36
  by_cases hc : c.val < 128
  · rw [out_lo x0 x1 x2 x3 x4 x5 n l c hc]
    refine (concatenate_pair_apply_left _ _ _ concatenates_S512x512x128_S512x512x128_S512x512x256_d2 (ix3 n l c) rfl
      (ix3 n l (⟨c.val, hc⟩ : Fin 128)) (fun b => by match b with | ⟨0, _⟩ => rfl | ⟨1, _⟩ => rfl | ⟨2, _⟩ => rfl)).trans ?_
    exact v28_apply x0 x2 x3 x4 x5 n l ⟨c.val, hc⟩
  · rw [out_hi x0 x1 x2 x3 x4 x5 n l c hc]
    have hc2 : c.val - 128 < 128 := by have := c.isLt; omega
    refine (concatenate_pair_apply_right _ _ _ concatenates_S512x512x128_S512x512x128_S512x512x256_d2 (ix3 n l c) rfl rfl
      (ix3 n l (⟨c.val - 128, hc2⟩ : Fin 128))
      (fun b hb => by match b, hb with | ⟨0, _⟩, _ => rfl | ⟨1, _⟩, _ => rfl | ⟨2, _⟩, hb => exact absurd rfl hb)
      (by show c.val - 128 + 128 = c.val; omega)).trans ?_
    rw [val_main_v35_apply, val_main_v34_apply, idx_v34_v35, v33_eq]
    rfl

end Cert.ReferenceIdeal.RefValue

end
-- ==== Proof.MaskDomain.lean ====
/-
  What the precondition says of the mask: every mask word is 0 or 1.

  The precondition is a conjunction whose last conjunct is `all ((mask = 0) or (mask = 1))`: a
  reduction by `and` over the whole [512, 512] array of the bitwise `or` of the two word comparisons.
  A conjunction that is 1 has each conjunct 1; a reduction by `and` that is 1 met only 1s; an `or` that is
  1 has a side that is 1; and a word comparison for equality that is 1 says the words are equal.
-/
import proofs.«412173_j24524263260901_3_alg».proof.Pre_finite_inputs
import Idealize.ShloMosaic.Lib.ReduceAll
import Idealize.ShloMosaic.Lib.StableHlo.Predicate
import Idealize.ShloMosaic.Lib.ValueIdx

noncomputable section

namespace Cert.Pre_finite_inputs

open Idealize.ShloMosaic

variable [Facts]
open Facts

instance : Subsingleton S_.Idx := ⟨fun a b => funext fun d => d.elim0⟩

/-- Under the precondition every mask word is 0 or 1. -/
theorem mask_binary {F : FTy → Type} [FloatOps F] (a0 : FVec F S512x512x64 .f32) (a1 : IVec S512x512 32)
    (a2 : FVec F S128x64 .f32) (a3 a4 a5 : FVec F S128 .f32)
    (h : fn (F := F) a0 a1 a2 a3 a4 a5 = fun _ => 1#1) (i : S512x512.Idx) : a1 i = 0#32 ∨ a1 i = 1#32 := by
  have h0 := congrFun h ValueIdx.ix0
  have h1 := (IntOp.andi_eq_one.1 (h0 : IntOp.andi _ (Host.reduce IntOp.andi
    (ori (cmpi .eq a1 (broadcastInDim S512x512 ![] bcast_S_S512x512 (constantI S_ 32 0#32)))
      (cmpi .eq a1 (broadcastInDim S512x512 ![] bcast_S_S512x512 (constantI S_ 32 1#32))))
    (constantI S_ 1 1#1) reducesTo_S512x512_S_d0_1 h_S_ ValueIdx.ix0) = 1#1)).2
  have h2 := Host.reduce_andi_all _ _ _ _ _ h1 i
  rcases IntOp.ori_eq_one.1 (h2 : IntOp.ori (IntOp.cmpi .eq (a1 i) _) (IntOp.cmpi .eq (a1 i) _) = 1#1) with e | e
  · exact Or.inl (StableHlo.Predicate.cmpi_eq_iff.1 e)
  · exact Or.inr (StableHlo.Predicate.cmpi_eq_iff.1 e)

end Cert.Pre_finite_inputs

end
-- ==== Proof.KernelBody.lean ====
/-
  The arithmetic of the kernel body, read at an index, over the extended reals.

  One grid step holds a block of 16 clouds of 512 points. Its body forms, for every point, the 128 channel values
  of the layer — the affine map of the point's 64 features, the normalization along the channels, the per-channel
  scale and shift, the clamp at zero —, multiplies them by the point's mask word read as a number, takes per cloud
  and channel the maximum over the 512 points from minus infinity, and lays that maximum out again over the points.
  The four theorems at the end say what each of these four values is at cloud `p`, point `q`, channel `r`:
  the first is the specification's `point`, the second that value times the mask word, the third the fold of
  `max` over the points, the fourth the third at `(p, r)` whatever the point.

  The road: every layout step (a re-laying between `[16, 512, …]` and `[8192, …]`, a unit axis added, a
  broadcast along an axis) reads its operand at the index with the same row-major position or the same kept
  coordinates; the matrix product into the zero accumulator is the sum over the 64 contraction positions of the
  operands' products; a sum along the channels is the sum over the 128 channel coordinates; narrowing a format is
  the identity on extended reals. The body's normalization is cut into stages (`lin16`, `laneMean`, `centred`,
  `laneRstd`), each read at an index as the specification's formula of the same name.
-/
import proofs.«412173_j24524263260901_3_alg».proof.Proof.Gen.KernelIdeal.Skeleton
import proofs.«412173_j24524263260901_3_alg».proof.Proof.PoolSpec
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-! ## The matrix product's operand indices

The product contracts axis 1 of both operands: at output index `(m, r)` and contraction position `c` the left operand
is read at `(m, c)` and the right one at `(r, c)`. -/

/-- The dimension numbers of the body's matrix product. -/
abbrev D : DotDims S8192x64 S128x64 S8192x128 := dot_S8192x64_S128x64_S8192x128_1_1_0_0_n_n

theorem lhs_D_0 (i : S8192x128.Idx) (c : D.contr.Idx) : (D.lhsIdx i c 0).val = (i 0).val := by
  unfold DotDims.lhsIdx
  rw [dif_neg (show ¬(0 : Fin S8192x64.rank) ∈ D.lhsBatch by decide),
    dif_pos (show (0 : Fin S8192x64.rank) ∈ D.lhsNonContracting by decide)]
  rfl

theorem lhs_D_1 (i : S8192x128.Idx) (c : D.contr.Idx) : (D.lhsIdx i c 1).val = (c ⟨0, by decide⟩).val :=
  D.lhsIdx_val_of_single rfl i c

theorem rhs_D_0 (i : S8192x128.Idx) (c : D.contr.Idx) : (D.rhsIdx i c 0).val = (i 1).val := by
  unfold DotDims.rhsIdx
  rw [dif_neg (show ¬(0 : Fin S128x64.rank) ∈ D.rhsBatch by decide),
    dif_pos (show (0 : Fin S128x64.rank) ∈ D.rhsNonContracting by decide)]
  rfl

theorem rhs_D_1 (i : S8192x128.Idx) (c : D.contr.Idx) : (D.rhsIdx i c 1).val = (c ⟨0, by decide⟩).val :=
  D.rhsIdx_val_of_single rfl i c

/-- Point `q` of cloud `p` is row `512 p + q` of the flattened block. -/
abbrev row (p : Fin 16) (q : Fin 512) : Fin 8192 := ⟨p.val * 512 + q.val, by have := p.isLt; have := q.isLt; omega⟩

/-- The product of two matrices into the zero accumulator, at row `m` and column `r`: the sum over the 64
    contraction positions of the operands' products. -/
theorem matmul_D_apply (A : FVec Ideal S8192x64 .bf16) (B : FVec Ideal S128x64 .bf16) (m : Fin 8192) (r : Fin 128) :
    matmul (F := Ideal) D none A B (constant S8192x128 .f32 0x00000000#32) (ix2 m r)
      = ∑ k : Fin 64, A (ix2 m k) * B (ix2 r k) := by
  refine (Ideal.matmul_constant_zero_apply D none A B (ix2 m r)).trans ?_
  rw [← Equiv.sum_comp (contrEquiv1 D 64 rfl rfl).symm]
  refine Finset.sum_congr rfl fun k _ => ?_
  have hk := contrEquiv1_symm_val D 64 rfl rfl k
  have el : D.lhsIdx (ix2 m r) ((contrEquiv1 D 64 rfl rfl).symm k) = ix2 m k := funext fun a => Fin.ext (by
    match a with
    | ⟨0, _⟩ => exact lhs_D_0 _ _
    | ⟨1, _⟩ => exact (lhs_D_1 _ _).trans hk)
  have er : D.rhsIdx (ix2 m r) ((contrEquiv1 D 64 rfl rfl).symm k) = ix2 r k := funext fun a => Fin.ext (by
    match a with
    | ⟨0, _⟩ => exact rhs_D_0 _ _
    | ⟨1, _⟩ => exact (rhs_D_1 _ _).trans hk)
  rw [el, er]

/-! ## The body's layout steps read at an index -/

/-- A per-channel vector re-laid to `[1, 1, 128]` and broadcast over clouds and points reads its channel. -/
theorem chan_apply (c : FVec Ideal S128 .f32) (p : Fin 16) (q : Fin 512) (r : Fin 128) :
    broadcastTo S16x512x128 (shapeCast S1x1x128 c shapeCasts_S128_S1x1x128) broadcasts_S1x1x128_S16x512x128 (ix3 p q r)
      = c (ix1 r) := by
  refine (broadcastTo_apply _ broadcasts_S1x1x128_S16x512x128 (ix3 p q r) (ix3 (0 : Fin 1) (0 : Fin 1) r) (fun a => by
    match a with
    | ⟨0, _⟩ => rfl
    | ⟨1, _⟩ => rfl
    | ⟨2, _⟩ => rfl)).trans ?_
  refine shapeCast_apply _ shapeCasts_S128_S1x1x128 (ix3 (0 : Fin 1) (0 : Fin 1) r) (ix1 r) ?_
  rw [Shape.rowMajor_val_one, Shape.rowMajor_val_three]
  show r.val = (0 * 1 + 0) * 128 + r.val
  omega

/-- A `[16, 512, 1]` value broadcast along the channels reads its point. -/
theorem bcastLane_apply (y : FVec Ideal S16x512x1 .f32) (p : Fin 16) (q : Fin 512) (r : Fin 128) :
    broadcastTo S16x512x128 y broadcasts_S16x512x1_S16x512x128 (ix3 p q r) = y (ix3 p q (0 : Fin 1)) :=
  broadcastTo_apply _ broadcasts_S16x512x1_S16x512x128 (ix3 p q r) (ix3 p q (0 : Fin 1)) (fun a => by
    match a with
    | ⟨0, _⟩ => rfl
    | ⟨1, _⟩ => rfl
    | ⟨2, _⟩ => rfl)

/-- A per-point value given a unit channel axis reads its point. -/
theorem castLane_apply (z : FVec Ideal S16x512 .f32) (p : Fin 16) (q : Fin 512) :
    shapeCast S16x512x1 z shapeCasts_S16x512_S16x512x1 (ix3 p q (0 : Fin 1)) = z (ix2 p q) := by
  refine shapeCast_apply _ shapeCasts_S16x512_S16x512x1 (ix3 p q (0 : Fin 1)) (ix2 p q) ?_
  rw [Shape.rowMajor_val_two, Shape.rowMajor_val_three]
  show p.val * 512 + q.val = (p.val * 512 + q.val) * 1 + 0
  omega

/-- The sum along the channels, at a point: the sum over the 128 channels. -/
theorem sumLane_apply (v : FVec Ideal S16x512x128 .f32) (p : Fin 16) (q : Fin 512) :
    multiReduction .add [2] S16x512 v 0x00000000#32 reduces_S16x512x128_S16x512 (.inl rfl) rfl (ix2 p q)
      = ∑ h : Fin 128, v (ix3 p q h) := by
  refine (Ideal.multiReduction_add_single v _ reduces_S16x512x128_S16x512 (.inl rfl) rfl (ix2 p q)).trans ?_
  show ∑ h : Fin 128, v (reduces_S16x512x128_S16x512.lift (ix2 p q) h) = _
  refine Finset.sum_congr rfl fun h _ => ?_
  exact congrArg v (funext fun a => Fin.ext (by match a with | ⟨0, _⟩ => rfl | ⟨1, _⟩ => rfl | ⟨2, _⟩ => rfl))

/-! ## The body's stages

The body computes, on the whole block: the affine map (`lin16`); per point the mean along the channels
(`laneMean`), the centred value (`centred`) and the reciprocal square root of the centred value's mean square plus
the small constant (`laneRstd`); then scale, shift and clamp. Each stage read at an index is the corresponding
formula of the specification. -/

/-- The affine map on the block: the flattened features times the weights, contracted along the features, re-laid
    to clouds by points by channels, plus the bias. -/
def lin16 (x0 : Vec Ideal S16x512x64 .f32) (w : Vec Ideal S128x64 .f32) (b : Vec Ideal S128 .f32) :
    FVec Ideal S16x512x128 .f32 :=
  addf
    (shapeCast S16x512x128
      (matmul D none (shapeCast S8192x64 (truncf .bf16 x0 bitsLt_bf16_f32) shapeCasts_S16x512x64_S8192x64)
        (truncf .bf16 w bitsLt_bf16_f32) (constant S8192x128 .f32 0x00000000#32))
      shapeCasts_S8192x128_S16x512x128)
    (broadcastTo S16x512x128 (shapeCast S1x1x128 b shapeCasts_S128_S1x1x128) broadcasts_S1x1x128_S16x512x128)

theorem lin16_apply (x0 : Vec Ideal S16x512x64 .f32) (w : Vec Ideal S128x64 .f32) (b : Vec Ideal S128 .f32)
    (p : Fin 16) (q : Fin 512) (r : Fin 128) :
    lin16 x0 w b (ix3 p q r)
      = Cert.PoolSpec.lin (fun k => x0 (ix3 p q k)) (fun h k => w (ix2 h k)) (fun h => b (ix1 h)) r := by
  unfold lin16 Cert.PoolSpec.lin
  refine (addf_apply _ _ _).trans ?_
  refine congrArg₂ (· + ·) ?_ (chan_apply b p q r)
  refine (shapeCast_apply _ shapeCasts_S8192x128_S16x512x128 (ix3 p q r) (ix2 (row p q) r) ?_).trans ?_
  · rw [Shape.rowMajor_val_two, Shape.rowMajor_val_three]
    rfl
  refine (matmul_D_apply _ _ (row p q) r).trans ?_
  refine Finset.sum_congr rfl fun k _ => ?_
  refine congrArg₂ (· * ·) ?_ rfl
  refine (shapeCast_apply _ shapeCasts_S16x512x64_S8192x64 (ix2 (row p q) k) (ix3 p q k) ?_).trans rfl
  rw [Shape.rowMajor_val_two, Shape.rowMajor_val_three]
  rfl

/-- The mean along the channels, per point, kept with a unit channel axis. -/
def laneMean (v : FVec Ideal S16x512x128 .f32) : FVec Ideal S16x512x1 .f32 :=
  divf
    (shapeCast S16x512x1
      (multiReduction .add [2] S16x512 v 0x00000000#32 reduces_S16x512x128_S16x512 (.inl rfl) rfl)
      shapeCasts_S16x512_S16x512x1)
    (broadcast S16x512x1 (Scalar.ofBits .f32 0x43000000#32))

theorem laneMean_apply (v : FVec Ideal S16x512x128 .f32) (p : Fin 16) (q : Fin 512) :
    laneMean v (ix3 p q (0 : Fin 1)) = Cert.PoolSpec.mean (fun h => v (ix3 p q h)) := by
  unfold laneMean Cert.PoolSpec.mean
  refine (divf_apply _ _ _).trans ?_
  refine congrArg₂ Ideal.div ?_ rfl
  exact (castLane_apply _ p q).trans (sumLane_apply v p q)

/-- The value less its point's mean. -/
def centred (v : FVec Ideal S16x512x128 .f32) : FVec Ideal S16x512x128 .f32 :=
  subf v (broadcastTo S16x512x128 (laneMean v) broadcasts_S16x512x1_S16x512x128)

theorem centred_apply (v : FVec Ideal S16x512x128 .f32) (p : Fin 16) (q : Fin 512) (r : Fin 128) :
    centred v (ix3 p q r) = v (ix3 p q r) - Cert.PoolSpec.mean (fun h => v (ix3 p q h)) := by
  unfold centred
  refine (subf_apply _ _ _).trans ?_
  exact congrArg (v (ix3 p q r) - ·) ((bcastLane_apply _ p q r).trans (laneMean_apply v p q))

/-- Per point, the reciprocal square root of the centred value's mean square plus the small constant. -/
def laneRstd (v : FVec Ideal S16x512x128 .f32) : FVec Ideal S16x512x1 .f32 :=
  rsqrt (addf (laneMean (mulf (centred v) (centred v))) (broadcast S16x512x1 (Scalar.ofBits .f32 0x3727C5AC#32)))

theorem laneRstd_apply (v : FVec Ideal S16x512x128 .f32) (p : Fin 16) (q : Fin 512) :
    laneRstd v (ix3 p q (0 : Fin 1))
      = Ideal.rsqrt (Cert.PoolSpec.mean (fun h =>
            (v (ix3 p q h) - Cert.PoolSpec.mean (fun h' => v (ix3 p q h')))
              * (v (ix3 p q h) - Cert.PoolSpec.mean (fun h' => v (ix3 p q h'))))
          + Ideal.ofBits .f32 0x3727C5AC#32) := by
  unfold laneRstd
  show Ideal.rsqrt (laneMean (mulf (centred v) (centred v)) (ix3 p q (0 : Fin 1)) + Ideal.ofBits .f32 0x3727C5AC#32) = _
  rw [laneMean_apply]
  refine congrArg (fun m => Ideal.rsqrt (Cert.PoolSpec.mean m + Ideal.ofBits .f32 0x3727C5AC#32)) (funext fun h => ?_)
  refine (mulf_apply _ _ _).trans ?_
  rw [centred_apply]

/-- The body's clamped, scaled and shifted normalization, as its stages. -/
theorem pay3_eq (x0 : Vec Ideal S16x512x64 .f32) (w : Vec Ideal S128x64 .f32) (b g be : Vec Ideal S128 .f32) :
    k0_pay3 (F := Ideal) x0 w b g be
      = maximumf
          (addf
            (mulf
              (mulf (centred (lin16 x0 w b))
                (broadcastTo S16x512x128 (laneRstd (lin16 x0 w b)) broadcasts_S16x512x1_S16x512x128))
              (broadcastTo S16x512x128 (shapeCast S1x1x128 g shapeCasts_S128_S1x1x128) broadcasts_S1x1x128_S16x512x128))
            (broadcastTo S16x512x128 (shapeCast S1x1x128 be shapeCasts_S128_S1x1x128) broadcasts_S1x1x128_S16x512x128))
          (broadcast S16x512x128 (Scalar.ofBits .f32 0x00000000#32)) := rfl

/-- The block's first payload at cloud `p`, point `q`, channel `r`: the specification's point value. -/
theorem pay3_apply (x0 : Vec Ideal S16x512x64 .f32) (w : Vec Ideal S128x64 .f32) (b g be : Vec Ideal S128 .f32)
    (p : Fin 16) (q : Fin 512) (r : Fin 128) :
    k0_pay3 (F := Ideal) x0 w b g be (ix3 p q r) = Cert.PoolSpec.point 16 x0 w b g be p q r := by
  rw [pay3_eq]
  unfold Cert.PoolSpec.point Cert.PoolSpec.yrow
  refine (maximumf_apply _ _ _).trans ?_
  refine congrArg₂ max ?_ rfl
  refine (addf_apply _ _ _).trans ?_
  refine congrArg₂ (· + ·) ?_ (chan_apply be p q r)
  refine (mulf_apply _ _ _).trans ?_
  refine congrArg₂ (· * ·) ?_ (chan_apply g p q r)
  refine (mulf_apply _ _ _).trans ?_
  refine congrArg₂ (· * ·) ?_ ?_
  · rw [centred_apply]
    simp only [lin16_apply]
  · rw [bcastLane_apply, laneRstd_apply]
    simp only [lin16_apply]

/-- The second payload: the first times the point's mask word read as a number (the word is converted per
    point, given a unit channel axis and broadcast along the channels). -/
theorem pay4_apply (x0 : Vec Ideal S16x512x64 .f32) (w : Vec Ideal S128x64 .f32) (b g be : Vec Ideal S128 .f32)
    (v37 : Vec Ideal S16x512 .i32) (p : Fin 16) (q : Fin 512) (r : Fin 128) :
    k0_pay4 (F := Ideal) x0 w b g be v37 (ix3 p q r)
      = k0_pay3 (F := Ideal) x0 w b g be (ix3 p q r) * ((((v37 (ix2 p q)).toInt : ℤ) : ℝ) : EReal) := by
  unfold k0_pay4
  refine (mulf_apply _ _ _).trans ?_
  refine congrArg (k0_pay3 (F := Ideal) x0 w b g be (ix3 p q r) * ·) ?_
  refine (bcastLane_apply _ p q r).trans ?_
  exact castLane_apply _ p q

/-- The third payload: per cloud and channel, the maximum over the cloud's 512 points, from minus infinity. -/
theorem pay1_apply (v41 : FVec Ideal S16x512x128 .f32) (p : Fin 16) (r : Fin 128) :
    k0_pay1 (F := Ideal) v41 (ix2 p r)
      = (Finset.univ : Finset (Fin 512)).fold max (Ideal.ofBits .f32 0xFF800000#32) (fun q => v41 (ix3 p q r)) := by
  unfold k0_pay1
  refine (Ideal.multiReduction_maximumf_single v41 _ reduces_S16x512x128_S16x128 (.inl rfl) rfl (ix2 p r)).trans ?_
  show (Finset.univ : Finset (Fin 512)).fold max (Ideal.ofBits .f32 0xFF800000#32)
      (fun q => v41 (reduces_S16x512x128_S16x128.lift (ix2 p r) q)) = _
  congr 1
  funext q
  exact congrArg v41 (funext fun a => Fin.ext (by match a with | ⟨0, _⟩ => rfl | ⟨1, _⟩ => rfl | ⟨2, _⟩ => rfl))

/-- The fourth payload: the third, given a unit point axis and broadcast along the points. -/
theorem pay2_apply (v41 : FVec Ideal S16x512x128 .f32) (p : Fin 16) (q : Fin 512) (r : Fin 128) :
    k0_pay2 (F := Ideal) v41 (ix3 p q r) = k0_pay1 (F := Ideal) v41 (ix2 p r) := by
  unfold k0_pay2
  refine (broadcastTo_apply _ broadcasts_S16x1x128_S16x512x128 (ix3 p q r) (ix3 p (0 : Fin 1) r) (fun a => by
    match a with
    | ⟨0, _⟩ => rfl
    | ⟨1, _⟩ => rfl
    | ⟨2, _⟩ => rfl)).trans ?_
  refine (shapeCast_apply _ shapeCasts_S16x1x128_S16x1x128 (ix3 p (0 : Fin 1) r) (ix3 p (0 : Fin 1) r) rfl).trans ?_
  refine shapeCast_apply _ shapeCasts_S16x128_S16x1x128 (ix3 p (0 : Fin 1) r) (ix2 p r) ?_
  rw [Shape.rowMajor_val_two, Shape.rowMajor_val_three]
  show p.val * 128 + r.val = (p.val * 1 + 0) * 128 + r.val
  omega

end Cert.KernelIdeal.Body

end
-- ==== Proof.KernelValue.lean ====
/-
  The kernel's two result arrays after its run, as the specification's functions of the argument arrays.

  One grid point handles 16 clouds. Its body leaves in the first output's block, per point of a cloud, the
  128 channel values in columns 0..127 and the cloud's pooled values in columns 128..255, and in the second
  output's block the pooled values; the pool multiplies by the mask word where the specification selects,
  which agree for words that are 0 or 1. So the body's blocks are the specification at 16 clouds of the
  input blocks. Block `t` of each input is clouds `16 t .. 16 t + 15` of its array (the parameters' blocks are
  the whole arrays), a cloud's values depend on that cloud's rows only, and the 32 blocks tile each output:
  the arrays end holding the specification at 512 clouds.
-/
import proofs.«412173_j24524263260901_3_alg».proof.Proof.Gen.KernelIdeal.Value
import proofs.«412173_j24524263260901_3_alg».proof.Proof.PoolSpec
import proofs.«412173_j24524263260901_3_alg».proof.Proof.KernelBody
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.PoolValue

open Cert.KernelIdeal Cert.KernelIdeal.Gen Cert.KernelIdeal.Value Cert.PoolSpec

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The body's blocks -/

section Body

variable (x0 : Vec Ideal S16x512x64 .f32) (x1 : Vec Ideal S16x512 .i32) (x2 : Vec Ideal S128x64 .f32)
  (x3 x4 x5 : Vec Ideal S128 .f32)

/-- What the pool takes at a point: for a mask word that is 0 or 1, the product with the word is the selection. -/
theorem masked_apply (hm : ∀ i, x1 i = 0#32 ∨ x1 i = 1#32) (p : Fin 16) (q : Fin 512) (r : Fin 128) :
    k0_pay4 (F := Ideal) x0 x2 x3 x4 x5 x1 (ix3 p q r) = keep (x1 (ix2 p q)) (point 16 x0 x2 x3 x4 x5 p q r) := by
  rw [Body.pay4_apply, Body.pay3_apply]
  exact mul_word_eq_keep _ (hm _) _

/-- The pooled value of cloud `p` at channel `r`, as the body computes it. -/
theorem pooled_apply (hm : ∀ i, x1 i = 0#32 ∨ x1 i = 1#32) (p : Fin 16) (r : Fin 128) :
    k0_pay1 (F := Ideal) (k0_pay4 (F := Ideal) x0 x2 x3 x4 x5 x1) (ix2 p r) = pooled 16 x0 x1 x2 x3 x4 x5 p r := by
  rw [Body.pay1_apply]
  unfold pooled
  rw [show (fun q => k0_pay4 (F := Ideal) x0 x2 x3 x4 x5 x1 (ix3 p q r))
      = fun q => keep (x1 (ix2 p q)) (point 16 x0 x2 x3 x4 x5 p q r) from
    funext fun q => masked_apply x0 x1 x2 x3 x4 x5 hm p q r]

/-- Columns 0..127 of the first output's block: the point's channel values. -/
theorem out6_lo (p : Fin 16) (q : Fin 512) (r : Fin 128) :
    out0_6 (F := Ideal) x0 x1 x2 x3 x4 x5 (ix3 p q (⟨r.val, by have := r.isLt; omega⟩ : Fin 256))
      = point 16 x0 x2 x3 x4 x5 p q r := by
  unfold out0_6
  simp only [View.ld_unit_zero (S := S16x512x64) hz3, View.ld_unit_zero (S := S128x64) hz2,
    View.ld_unit_zero (S := S128) hz1, View.ld_unit_zero (S := S16x512) hz2]
  rw [View.canon_cons_of_not_mem]
  · have e : (ix3 p q (⟨r.val, by have := r.isLt; omega⟩ : Fin 256) : S16x512x256.Idx) = r0_4.emb (ix3 p q r) :=
      funext fun a => Fin.ext (by
        match a with
        | ⟨0, _⟩ => show p.val = 0 + 1 * p.val; omega
        | ⟨1, _⟩ => show q.val = 0 + 1 * q.val; omega
        | ⟨2, _⟩ => show r.val = 0 + 1 * r.val; omega)
    rw [e, View.canon_cons_emb]
    exact Body.pay3_apply x0 x2 x3 x4 x5 p q r
  · intro hmem
    rw [Rect.mem_set_unit] at hmem
    have h2 : 128 ≤ r.val := (hmem 2).1
    have := r.isLt
    omega

/-- Columns 128..255 of the first output's block: the cloud's pooled values. -/
theorem out6_hi (hm : ∀ i, x1 i = 0#32 ∨ x1 i = 1#32) (p : Fin 16) (q : Fin 512) (r : Fin 128) :
    out0_6 (F := Ideal) x0 x1 x2 x3 x4 x5 (ix3 p q (⟨128 + r.val, by have := r.isLt; omega⟩ : Fin 256))
      = pooled 16 x0 x1 x2 x3 x4 x5 p r := by
  unfold out0_6
  simp only [View.ld_unit_zero (S := S16x512x64) hz3, View.ld_unit_zero (S := S128x64) hz2,
    View.ld_unit_zero (S := S128) hz1, View.ld_unit_zero (S := S16x512) hz2]
  have e : (ix3 p q (⟨128 + r.val, by have := r.isLt; omega⟩ : Fin 256) : S16x512x256.Idx) = r0_5.emb (ix3 p q r) :=
    funext fun a => Fin.ext (by
      match a with
      | ⟨0, _⟩ => show p.val = 0 + 1 * p.val; omega
      | ⟨1, _⟩ => show q.val = 0 + 1 * q.val; omega
      | ⟨2, _⟩ => show 128 + r.val = 128 + 1 * r.val; omega)
  rw [e, View.canon_cons_emb, Body.pay2_apply]
  exact pooled_apply x0 x1 x2 x3 x4 x5 hm p r

/-- The first output's block is the specification's first result at 16 clouds. -/
theorem out6_eq (hm : ∀ i, x1 i = 0#32 ∨ x1 i = 1#32) :
    out0_6 (F := Ideal) x0 x1 x2 x3 x4 x5 = out 16 x0 x1 x2 x3 x4 x5 := by
  funext y
  obtain ⟨p, q, j, rfl⟩ : ∃ (p : Fin 16) (q : Fin 512) (j : Fin 256), y = ix3 p q j := ⟨y 0, y 1, y 2, eq_ix3 y⟩
  have h2 : j.val < 256 := j.isLt
  by_cases hj : j.val < 128
  · have ej : j = (⟨(⟨j.val, hj⟩ : Fin 128).val, by omega⟩ : Fin 256) := Fin.ext rfl
    rw [ej, out6_lo]
    unfold out
    rw [dif_pos (show ((ix3 p q (⟨(⟨j.val, hj⟩ : Fin 128).val, by omega⟩ : Fin 256) : S16x512x256.Idx) 2).val < 128 from hj)]
  · have ej : j = (⟨128 + (⟨j.val - 128, by omega⟩ : Fin 128).val, by omega⟩ : Fin 256) :=
      Fin.ext (by show j.val = 128 + (j.val - 128); omega)
    rw [ej, out6_hi x0 x1 x2 x3 x4 x5 hm]
    unfold out
    rw [dif_neg (show ¬ ((ix3 p q (⟨128 + (⟨j.val - 128, by omega⟩ : Fin 128).val, by omega⟩ : Fin 256) : S16x512x256.Idx) 2).val < 128 from by
      show ¬ (128 + (j.val - 128) < 128); omega)]
    congr 1
    exact Fin.ext (by show j.val - 128 = 128 + (j.val - 128) - 128; omega)

/-- The second output's block is the specification's second result at 16 clouds. -/
theorem out7_eq (hm : ∀ i, x1 i = 0#32 ∨ x1 i = 1#32) :
    out0_7 (F := Ideal) x0 x1 x2 x3 x4 x5 = pool 16 x0 x1 x2 x3 x4 x5 := by
  unfold out0_7
  simp only [View.ld_unit_zero (S := S16x512x64) hz3, View.ld_unit_zero (S := S128x64) hz2,
    View.ld_unit_zero (S := S128) hz1, View.ld_unit_zero (S := S16x512) hz2]
  rw [View.canon_unit_zero hz2]
  funext y
  obtain ⟨p, r, rfl⟩ : ∃ (p : Fin 16) (r : Fin 128), y = ix2 p r := ⟨y 0, y 1, eq_ix2 y⟩
  exact pooled_apply x0 x1 x2 x3 x4 x5 hm p r

end Body

/-! ## A cloud's values depend on that cloud's rows only -/

section Local

variable {N M : Nat}

/-- The first result at an index of an `N`-cloud array and at an index of an `M`-cloud array with the same point and
    column agree when the two clouds' features and mask words agree. -/
theorem out_congr (x : (⟨3, ![N, 512, 64]⟩ : Shape).Idx → EReal) (x' : (⟨3, ![M, 512, 64]⟩ : Shape).Idx → EReal)
    (mask : (⟨2, ![N, 512]⟩ : Shape).Idx → BitVec 32) (mask' : (⟨2, ![M, 512]⟩ : Shape).Idx → BitVec 32)
    (W : (⟨2, ![128, 64]⟩ : Shape).Idx → EReal) (b g be : (⟨1, ![128]⟩ : Shape).Idx → EReal)
    (n : Fin N) (n' : Fin M) (l : Fin 512) (j : Fin 256)
    (hx : ∀ l k, x (ix3 n l k) = x' (ix3 n' l k)) (hm : ∀ l, mask (ix2 n l) = mask' (ix2 n' l)) :
    out N x mask W b g be (ix3 n l j) = out M x' mask' W b g be (ix3 n' l j) := by
  unfold out
  by_cases hj : j.val < 128
  · rw [dif_pos (show ((ix3 n l j : (⟨3, ![N, 512, 256]⟩ : Shape).Idx) 2).val < 128 from hj),
      dif_pos (show ((ix3 n' l j : (⟨3, ![M, 512, 256]⟩ : Shape).Idx) 2).val < 128 from hj)]
    exact point_congr x x' W b g be n n' l (hx l) _
  · rw [dif_neg (show ¬ ((ix3 n l j : (⟨3, ![N, 512, 256]⟩ : Shape).Idx) 2).val < 128 from hj),
      dif_neg (show ¬ ((ix3 n' l j : (⟨3, ![M, 512, 256]⟩ : Shape).Idx) 2).val < 128 from hj)]
    exact pooled_congr x x' mask mask' W b g be n n' hx hm _

/-- The same for the second result. -/
theorem pool_congr (x : (⟨3, ![N, 512, 64]⟩ : Shape).Idx → EReal) (x' : (⟨3, ![M, 512, 64]⟩ : Shape).Idx → EReal)
    (mask : (⟨2, ![N, 512]⟩ : Shape).Idx → BitVec 32) (mask' : (⟨2, ![M, 512]⟩ : Shape).Idx → BitVec 32)
    (W : (⟨2, ![128, 64]⟩ : Shape).Idx → EReal) (b g be : (⟨1, ![128]⟩ : Shape).Idx → EReal)
    (n : Fin N) (n' : Fin M) (h : Fin 128)
    (hx : ∀ l k, x (ix3 n l k) = x' (ix3 n' l k)) (hm : ∀ l, mask (ix2 n l) = mask' (ix2 n' l)) :
    pool N x mask W b g be (ix2 n h) = pool M x' mask' W b g be (ix2 n' h) :=
  pooled_congr x x' mask mask' W b g be n n' hx hm h

end Local

/-! ## The input windows' blocks as rows of the argument arrays -/

variable (m : (ℓ : Loc nD τ sig) → Buf (Elt Ideal) ℓ) (ρ : Dev nD → PrngReg)

/-- The index maps over the 32 grid points: the feature, mask and output windows move along the cloud axis with the
    grid point; every other block index is 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 3) = t.val ∧ win0_6.index t (1 : Fin 3) = 0 ∧ win0_6.index t (2 : Fin 3) = 0
    ∧ win0_7.index t (0 : Fin 2) = t.val ∧ win0_7.index t (1 : Fin 2) = 0 :=
  (by decide +kernel : ∀ t : Fin grid0.N, _)

/-- The argument arrays, at their literal types. -/
abbrev arrX (c : Dev nD) : S512x512x64.Idx → EReal := m ((c : Thread nD τ).loc main_arg0)
abbrev arrM (c : Dev nD) : S512x512.Idx → BitVec 32 := m ((c : Thread nD τ).loc main_arg1)
abbrev arrW (c : Dev nD) : S128x64.Idx → EReal := m ((c : Thread nD τ).loc main_arg2)
abbrev arrB (c : Dev nD) : S128.Idx → EReal := m ((c : Thread nD τ).loc main_arg3)
abbrev arrG (c : Dev nD) : S128.Idx → EReal := m ((c : Thread nD τ).loc main_arg4)
abbrev arrE (c : Dev nD) : S128.Idx → EReal := m ((c : Thread nD τ).loc main_arg5)

/-- Block `t` of the features is clouds `16 t .. 16 t + 15`. -/
theorem blkX_apply (c : Dev nD) (t : Fin cfg0.N) (y : S16x512x64.Idx) (k : S512x512x64.Idx)
    (hk0 : (k 0).val = 16 * t.val + (y 0).val) (hk1 : (k 1).val = (y 1).val) (hk2 : (k 2).val = (y 2).val) :
    (iblk m c 0 t : Vec Ideal S16x512x64 .f32) y = arrX m c k := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t 0 * 16 + 1 * (y 0).val = (k 0).val; rw [e0, hk0]; omega
  | ⟨1, _⟩ => show win0_0.index t 1 * 512 + 1 * (y 1).val = (k 1).val; rw [e1, hk1]; omega
  | ⟨2, _⟩ => show win0_0.index t 2 * 64 + 1 * (y 2).val = (k 2).val; rw [e2, hk2]; omega

/-- Block `t` of the mask is clouds `16 t .. 16 t + 15`. -/
theorem blkM_apply (c : Dev nD) (t : Fin cfg0.N) (y : S16x512.Idx) (k : S512x512.Idx)
    (hk0 : (k 0).val = 16 * t.val + (y 0).val) (hk1 : (k 1).val = (y 1).val) :
    (iblk m c 1 t : Vec Ideal S16x512 .i32) y = arrM m c k := by
  obtain ⟨-, -, -, e0, e1, -⟩ := idx_facts t
  unfold iblk
  rw [View.read_apply]
  show V m c main_arg1 _ = m (c.tc.loc main_arg1) _
  unfold V
  congr 1
  funext a
  apply Fin.ext
  match a with
  | ⟨0, _⟩ => show win0_1.index t 0 * 16 + 1 * (y 0).val = (k 0).val; rw [e0, hk0]; omega
  | ⟨1, _⟩ => show win0_1.index t 1 * 512 + 1 * (y 1).val = (k 1).val; rw [e1, hk1]; omega

/-- The weights' block is the whole array, at every point. -/
theorem blkW_eq (c : Dev nD) (t : Fin cfg0.N) : (iblk m c 2 t : Vec Ideal S128x64 .f32) = arrW m c := by
  obtain ⟨-, -, -, -, -, e0, e1, -⟩ := idx_facts t
  funext y
  unfold iblk
  rw [View.read_apply]
  show V m c main_arg2 _ = m (c.tc.loc main_arg2) _
  unfold V
  congr 1
  funext a
  apply Fin.ext
  match a with
  | ⟨0, _⟩ => show win0_2.index t 0 * 128 + 1 * (y 0).val = (y 0).val; rw [e0]; omega
  | ⟨1, _⟩ => show win0_2.index t 1 * 64 + 1 * (y 1).val = (y 1).val; rw [e1]; omega

/-- So are the bias's, the scale's and the shift's. -/
theorem blkB_eq (c : Dev nD) (t : Fin cfg0.N) : (iblk m c 3 t : Vec Ideal S128 .f32) = arrB m c := by
  obtain ⟨-, -, -, -, -, -, -, e0, -⟩ := idx_facts t
  funext y
  unfold iblk
  rw [View.read_apply]
  show V m c main_arg3 _ = m (c.tc.loc main_arg3) _
  unfold V
  congr 1
  funext a
  apply Fin.ext
  match a with
  | ⟨0, _⟩ => show win0_3.index t 0 * 128 + 1 * (y 0).val = (y 0).val; rw [e0]; omega

theorem blkG_eq (c : Dev nD) (t : Fin cfg0.N) : (iblk m c 4 t : Vec Ideal S128 .f32) = arrG m c := by
  obtain ⟨-, -, -, -, -, -, -, -, e0, -⟩ := idx_facts t
  funext y
  unfold iblk
  rw [View.read_apply]
  show V m c main_arg4 _ = m (c.tc.loc main_arg4) _
  unfold V
  congr 1
  funext a
  apply Fin.ext
  match a with
  | ⟨0, _⟩ => show win0_4.index t 0 * 128 + 1 * (y 0).val = (y 0).val; rw [e0]; omega

theorem blkE_eq (c : Dev nD) (t : Fin cfg0.N) : (iblk m c 5 t : Vec Ideal S128 .f32) = arrE m c := by
  obtain ⟨-, -, -, -, -, -, -, -, -, e0, -⟩ := idx_facts t
  funext y
  unfold iblk
  rw [View.read_apply]
  show V m c main_arg5 _ = m (c.tc.loc main_arg5) _
  unfold V
  congr 1
  funext a
  apply Fin.ext
  match a with
  | ⟨0, _⟩ => show win0_5.index t 0 * 128 + 1 * (y 0).val = (y 0).val; rw [e0]; omega

/-! ## What each point writes back, and the arrays after the run -/

/-- The specification's two results of the argument arrays. -/
abbrev res0 (c : Dev nD) : Buf (Elt Ideal) ((c : Thread nD τ).loc main_v0_0) :=
  out 512 (arrX m c) (arrM m c) (arrW m c) (arrB m c) (arrG m c) (arrE m c)
abbrev res1 (c : Dev nD) : Buf (Elt Ideal) ((c : Thread nD τ).loc main_v0_1) :=
  pool 512 (arrX m c) (arrM m c) (arrW m c) (arrB m c) (arrG m c) (arrE m c)

-- The hypothesis on the mask: every word is 0 or 1.
variable (hmask : ∀ (c : Dev nD) (i : S512x512.Idx), arrM m c i = 0#32 ∨ arrM m c i = 1#32)

include hmask in
/-- Then so is every word of every mask block. -/
theorem blkM_binary (c : Dev nD) (t : Fin cfg0.N) (y : S16x512.Idx) :
    (iblk m c 1 t : Vec Ideal S16x512 .i32) y = 0#32 ∨ (iblk m c 1 t : Vec Ideal S16x512 .i32) y = 1#32 := by
  have ht : t.val < 32 := lt_of_lt_of_eq t.isLt (show cfg0.N = 32 from N_0)
  have h0 : (y 0).val < 16 := (y 0).isLt
  have h1 : (y 1).val < 512 := (y 1).isLt
  rw [blkM_apply m c t y (ix2 (⟨16 * t.val + (y 0).val, by omega⟩ : Fin 512) (⟨(y 1).val, h1⟩ : Fin 512)) rfl rfl]
  exact hmask c _

include hmask in
/-- WHAT POINT `t` WRITES BACK to the first output is block `t` of the specification's first result. -/
theorem flushed6_eq (c : Dev nD) (t : Fin cfg0.N) :
    (dats m 0 c).flushed 6 t = ((cfg0.win 6).blk t).view.read (Elt Ideal) (res0 m c) := by
  have ht : t.val < 32 := lt_of_lt_of_eq t.isLt (show cfg0.N = 32 from N_0)
  obtain ⟨-, -, -, -, -, -, -, -, -, -, e0, e1, e2, -⟩ := idx_facts t
  rw [Value.flushed6, out6_eq (iblk m c 0 t) (iblk m c 1 t) (iblk m c 2 t) (iblk m c 3 t) (iblk m c 4 t) (iblk m c 5 t)
    (blkM_binary m hmask c t), blkW_eq, blkB_eq, blkG_eq, blkE_eq]
  funext y
  show out 16 (iblk m c 0 t) (iblk m c 1 t) (arrW m c) (arrB m c) (arrG m c) (arrE m c) y
    = out 512 (arrX m c) (arrM m c) (arrW m c) (arrB m c) (arrG m c) (arrE m c) (((cfg0.win 6).blk t).view.emb y)
  obtain ⟨p, q, j, rfl⟩ : ∃ (p : Fin 16) (q : Fin 512) (j : Fin 256), y = ix3 p q j := ⟨y 0, y 1, y 2, eq_ix3 y⟩
  have hp : p.val < 16 := p.isLt
  have ey : ((cfg0.win 6).blk t).view.emb (ix3 p q j) = ix3 (⟨16 * t.val + p.val, by omega⟩ : Fin 512) q j :=
    funext fun a => Fin.ext (by
      match a with
      | ⟨0, _⟩ => show win0_6.index t 0 * 16 + 1 * p.val = 16 * t.val + p.val; rw [e0]; omega
      | ⟨1, _⟩ => show win0_6.index t 1 * 512 + 1 * q.val = q.val; rw [e1]; omega
      | ⟨2, _⟩ => show win0_6.index t 2 * 256 + 1 * j.val = j.val; rw [e2]; omega)
  rw [ey]
  exact out_congr _ _ _ _ _ _ _ _ p (⟨16 * t.val + p.val, by omega⟩ : Fin 512) q j
    (fun l k => blkX_apply m c t (ix3 p l k) (ix3 (⟨16 * t.val + p.val, by omega⟩ : Fin 512) l k) rfl rfl rfl)
    (fun l => blkM_apply m c t (ix2 p l) (ix2 (⟨16 * t.val + p.val, by omega⟩ : Fin 512) l) rfl rfl)

include hmask in
/-- WHAT POINT `t` WRITES BACK to the second output is block `t` of the specification's second result. -/
theorem flushed7_eq (c : Dev nD) (t : Fin cfg0.N) :
    (dats m 0 c).flushed 7 t = ((cfg0.win 7).blk t).view.read (Elt Ideal) (res1 m c) := by
  have ht : t.val < 32 := lt_of_lt_of_eq t.isLt (show cfg0.N = 32 from N_0)
  obtain ⟨-, -, -, -, -, -, -, -, -, -, -, -, -, e0, e1⟩ := idx_facts t
  rw [Value.flushed7, out7_eq (iblk m c 0 t) (iblk m c 1 t) (iblk m c 2 t) (iblk m c 3 t) (iblk m c 4 t) (iblk m c 5 t)
    (blkM_binary m hmask c t), blkW_eq, blkB_eq, blkG_eq, blkE_eq]
  funext y
  show pool 16 (iblk m c 0 t) (iblk m c 1 t) (arrW m c) (arrB m c) (arrG m c) (arrE m c) y
    = pool 512 (arrX m c) (arrM m c) (arrW m c) (arrB m c) (arrG m c) (arrE m c) (((cfg0.win 7).blk t).view.emb y)
  obtain ⟨p, r, rfl⟩ : ∃ (p : Fin 16) (r : Fin 128), y = ix2 p r := ⟨y 0, y 1, eq_ix2 y⟩
  have hp : p.val < 16 := p.isLt
  have ey : ((cfg0.win 7).blk t).view.emb (ix2 p r) = ix2 (⟨16 * t.val + p.val, by omega⟩ : Fin 512) r :=
    funext fun a => Fin.ext (by
      match a with
      | ⟨0, _⟩ => show win0_7.index t 0 * 16 + 1 * p.val = 16 * t.val + p.val; rw [e0]; omega
      | ⟨1, _⟩ => show win0_7.index t 1 * 128 + 1 * r.val = r.val; rw [e1]; omega)
  rw [ey]
  exact pool_congr _ _ _ _ _ _ _ _ p (⟨16 * t.val + p.val, by omega⟩ : Fin 512) r
    (fun l k => blkX_apply m c t (ix3 p l k) (ix3 (⟨16 * t.val + p.val, by omega⟩ : Fin 512) l k) rfl rfl rfl)
    (fun l => blkM_apply m c t (ix2 p l) (ix2 (⟨16 * t.val + p.val, by omega⟩ : Fin 512) l) rfl rfl)

/-- An index of the first output's array is in point `t`'s block iff each coordinate is in the block's range. -/
theorem mem_blk6 (t : Fin cfg0.N) (i : S512x512x256.Idx) :
    i ∈ ((cfg0.win 6).blk t).view.set ↔ ∀ a : Fin 3, win0_6.index t a * S16x512x256.size a ≤ (i a).val
      ∧ (i a).val < win0_6.index t a * S16x512x256.size a + S16x512x256.size a := by
  show i ∈ ((View.whole main_v0_0).slice (win0_6.rect t)).set ↔ _
  rw [View.set_slice_whole, Rect.mem_set_unit]
  exact Iff.rfl

theorem mem_blk7 (t : Fin cfg0.N) (i : S512x128.Idx) :
    i ∈ ((cfg0.win 7).blk t).view.set ↔ ∀ a : Fin 2, win0_7.index t a * S16x128.size a ≤ (i a).val
      ∧ (i a).val < win0_7.index t a * S16x128.size a + S16x128.size a := by
  show i ∈ ((View.whole main_v0_1).slice (win0_7.rect t)).set ↔ _
  rw [View.set_slice_whole, Rect.mem_set_unit]
  exact Iff.rfl

/-- The 32 blocks of 16 clouds tile the first output: cloud `n` is in block `n / 16`. -/
theorem cover6 (i : S512x512x256.Idx) :
    ∃ t : Fin cfg0.N, (cfg0.win 6).flush t = true ∧ i ∈ ((cfg0.win 6).blk t).view.set := by
  have h0 : (i 0).val < 512 := (i 0).isLt
  have h1 : (i 1).val < 512 := (i 1).isLt
  have h2 : (i 2).val < 256 := (i 2).isLt
  have hN : cfg0.N = 32 := N_0
  obtain ⟨t, ht⟩ : ∃ t : Fin cfg0.N, t.val = (i 0).val / 16 := ⟨⟨(i 0).val / 16, by rw [hN]; omega⟩, rfl⟩
  obtain ⟨-, -, -, -, -, -, -, -, -, -, e0, e1, e2, -⟩ := idx_facts t
  refine ⟨t, flush0_6 t, (mem_blk6 t i).2 fun a => ?_⟩
  match a with
  | ⟨0, _⟩ => show win0_6.index t 0 * 16 ≤ (i 0).val ∧ (i 0).val < win0_6.index t 0 * 16 + 16; rw [e0, ht]; omega
  | ⟨1, _⟩ => show win0_6.index t 1 * 512 ≤ (i 1).val ∧ (i 1).val < win0_6.index t 1 * 512 + 512; rw [e1]; omega
  | ⟨2, _⟩ => show win0_6.index t 2 * 256 ≤ (i 2).val ∧ (i 2).val < win0_6.index t 2 * 256 + 256; rw [e2]; omega

theorem cover7 (i : S512x128.Idx) :
    ∃ t : Fin cfg0.N, (cfg0.win 7).flush t = true ∧ i ∈ ((cfg0.win 7).blk t).view.set := by
  have h0 : (i 0).val < 512 := (i 0).isLt
  have h1 : (i 1).val < 128 := (i 1).isLt
  have hN : cfg0.N = 32 := N_0
  obtain ⟨t, ht⟩ : ∃ t : Fin cfg0.N, t.val = (i 0).val / 16 := ⟨⟨(i 0).val / 16, by rw [hN]; omega⟩, rfl⟩
  obtain ⟨-, -, -, -, -, -, -, -, -, -, -, -, -, e0, e1⟩ := idx_facts t
  refine ⟨t, flush0_7 t, (mem_blk7 t i).2 fun a => ?_⟩
  match a with
  | ⟨0, _⟩ => show win0_7.index t 0 * 16 ≤ (i 0).val ∧ (i 0).val < win0_7.index t 0 * 16 + 16; rw [e0, ht]; omega
  | ⟨1, _⟩ => show win0_7.index t 1 * 128 ≤ (i 1).val ∧ (i 1).val < win0_7.index t 1 * 128 + 128; rw [e1]; omega

include hmask in
/-- THE ARRAYS after the run: the specification's results of the argument arrays. -/
theorem final6 (c : Dev nD) : (dats m 0 c).arrAt 6 cfg0.N = res0 m c :=
  (dats m 0 c).arrAt_eq_of_cover 6 (res0 m c) (fun t _ => flushed6_eq m hmask c t) cover6

include hmask in
theorem final7 (c : Dev nD) : (dats m 0 c).arrAt 7 cfg0.N = res1 m c :=
  (dats m 0 c).arrAt_eq_of_cover 7 (res1 m c) (fun t _ => flushed7_eq m hmask c t) cover7

include hmask in
/-- The kernel's run, read: both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v0_0) = res0 m c
      ∧ r.2.mem ((c : Thread nD τ).loc main_v0_1) = res1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m hmask c), (h c).2.1.trans (final7 m hmask c), (h c).2.2⟩)
    (Value.run_blocks m ρ)

end Cert.KernelIdeal.PoolValue

end
-- ==== Proof.lean ====
/-
  The certificate: a linear layer, layer normalization, relu and a masked maximum over the points of each
  cloud, as a pipelined kernel over blocks of 16 clouds, against the same layer written with whole-array
  operations.

  Both programs are read at the extended reals as the same two functions of the argument arrays
  (`Cert.PoolSpec.out`, `Cert.PoolSpec.pool`): per point the affine map of its 64 features, the
  normalization over the 128 channels, scale, shift and clamp at zero; per cloud and channel the maximum,
  from minus infinity, over the points whose mask word is not zero (a masked point counts as zero). The kernel
  multiplies by the mask word where the reference selects, so the two agree for mask words that are 0 or 1:
  that is the precondition's last conjunct, and the only use the proof makes of the precondition. No other
  step needs finiteness: the sums are the same sums of the same terms, and the divisions, the reciprocal
  square root and the maxima are the same operations of the same operands.

  The kernel's side: the body's blocks are the specification at 16 clouds of the input blocks, block `t` of the
  inputs is clouds `16 t .. 16 t + 15`, and the 32 blocks tile the outputs (`PoolValue.run`). The
  reference's side: its run read one operation at a time (`RefValue.v36_eq`, `RefValue.v33_eq`).
-/
import proofs.«412173_j24524263260901_3_alg».proof.Defs
import proofs.«412173_j24524263260901_3_alg».proof.Proof.Gen.Kernel
import proofs.«412173_j24524263260901_3_alg».proof.Proof.Gen.Kernel.Frame
import proofs.«412173_j24524263260901_3_alg».proof.Proof.Gen.KernelIdeal
import proofs.«412173_j24524263260901_3_alg».proof.Proof.Gen.KernelIdeal.Frame
import proofs.«412173_j24524263260901_3_alg».proof.Proof.Gen.KernelIdeal.Value
import proofs.«412173_j24524263260901_3_alg».proof.Proof.Gen.ReferenceIdeal
import proofs.«412173_j24524263260901_3_alg».proof.Proof.Gen.Pre_finite_inputs
import proofs.«412173_j24524263260901_3_alg».proof.Proof.RefRun
import proofs.«412173_j24524263260901_3_alg».proof.Proof.RefRead
import proofs.«412173_j24524263260901_3_alg».proof.Proof.RefValue
import proofs.«412173_j24524263260901_3_alg».proof.Proof.MaskDomain
import proofs.«412173_j24524263260901_3_alg».proof.Proof.KernelValue
import Idealize.ShloMosaic.Adequacy
import Idealize.ShloMosaic.Init

noncomputable section

namespace Cert.Proof

open Idealize.ShloMosaic Idealize.ShloMosaic.TcCoe Idealize.SL.Sem

/-- The kernel at the word level runs, and leaves its arguments as they were. -/
theorem frame_k : @Cert.frame_Kernel Cert.Kernel.Gen.facts Cert.Pre_finite_inputs.Gen.facts :=
  fun m ρ _ => Cert.Kernel.Gen.frame m ρ

/-- So does the kernel at the extended reals. -/
theorem frame_ki : @Cert.frame_KernelIdeal Cert.KernelIdeal.Gen.facts Cert.Pre_finite_inputs.Gen.facts :=
  fun m ρ _ => Cert.KernelIdeal.Gen.frame m ρ

/-- The reference runs: its run read back, the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.RunP.run (F := Ideal) m ρ)

/-- From memories that agree on the arguments, with every mask word 0 or 1, the two programs end with both
    results at the specification's functions of the arguments. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hmask : ∀ (c : Dev Cert.KernelIdeal.nD) (i : Cert.KernelIdeal.S512x512.Idx),
      Cert.KernelIdeal.PoolValue.arrM m c i = 0#32 ∨ Cert.KernelIdeal.PoolValue.arrM m c i = 1#32 :=
    fun c i => Cert.Pre_finite_inputs.mask_binary (F := Ideal) _ _ _ _ _ _ (hpre c) i
  refine ⟨fun c => Cert.KernelIdeal.PoolValue.res0 m c, fun c => Cert.KernelIdeal.PoolValue.res1 m c,
    Cert.KernelIdeal.PoolValue.run m ρ hmask, ?_⟩
  refine (θ_run Cert.ReferenceIdeal.defs _ _).mono (fun _ h c => ⟨(h c).1.trans ?_, (h c).2.1.trans ?_, (h c).2.2⟩)
    (Cert.ReferenceIdeal.RunP.run (F := Ideal) m' ρ')
  · rw [Cert.ReferenceIdeal.ReadP.val_main_v36_eq, Cert.ReferenceIdeal.RefValue.v36_eq, (hagree c).1, (hagree c).2.1,
      (hagree c).2.2.1, (hagree c).2.2.2.1, (hagree c).2.2.2.2.1, (hagree c).2.2.2.2.2]
  · rw [Cert.ReferenceIdeal.ReadP.val_main_v33_eq, Cert.ReferenceIdeal.RefValue.v33_eq, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
